-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000x1 .f32) (main_arg3 : FVec F S128x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000x1 : Shape := ⟨2, ![50000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 34
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000x1, .f32⟩
  | .hbm, ⟨24, _⟩ => ⟨S_, .f32⟩
  | .hbm, ⟨25, _⟩ => ⟨S50000x1, .f32⟩
  | .hbm, ⟨26, _⟩ => ⟨S800000x1, .i32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000x1 : Shape := ⟨2, ![50000, 1]⟩
abbrev S50000 : Shape := ⟨1, ![50000]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S128x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000x1, .f32⟩
  | .hbm, ⟨26, _⟩ => ⟨S_, .f32⟩
  | .hbm, ⟨27, _⟩ => ⟨S50000x1, .f32⟩
  | .hbm, ⟨28, _⟩ => ⟨S800000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S_, .f32⟩
  | .hbm, ⟨38, _⟩ => ⟨S_, .f32⟩
  | .hbm, ⟨39, _⟩ => ⟨S50000x128, .f32⟩
  | .hbm, ⟨40, _⟩ => ⟨S50000x128, .i1⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S_, .f32⟩
  | .hbm, ⟨48, _⟩ => ⟨S50000x128, .f32⟩
  | .hbm, ⟨49, _⟩ => ⟨S50000x128, .i1⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000, .f32⟩
  | .hbm, ⟨57, _⟩ => ⟨S50000x1, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.Spec.lean ====
/-
  The function both programs compute, entry by entry, over the extended reals.

  From node features x and aggregated neighbour features nm (both R × 128) and two 128 × 128 weight matrices Ws, Wn
  (stored output-major, so the linear maps are x · Wsᵀ and nm · Wnᵀ):

      lin A W (r, j)  =  ∑ q, A (r, q) · W (j, q)                           -- one entry of A · Wᵀ
      leaky v         =  v  when v ≥ 0,  else  slope · v                     -- slope the binary32 nearest 0.2
      upd (r, j)      =  leaky (lin x Ws (r, j) + leaky (lin nm Wn (r, j)))
      nrm r           =  max (√(∑ j, upd (r, j)²)) eps                       -- eps the binary32 nearest 1e-12
      out (r, j)      =  upd (r, j) / nrm r

  Every entry of row r of out depends on x and nm only through their rows r. So the rows of out over a block of rows
  of x and nm are the same rows of out over the whole arrays (out_of_rows): this is what lets a kernel
  that handles 2000 rows at a time be compared with a computation over all 50000.
-/
import Idealize.ShloMosaic.PureOps.Ideal.Laws
import Idealize.ShloMosaic.Lib.ValueIdx

noncomputable section

open scoped BigOperators

namespace Cert.GraphConv

open Idealize.ShloMosaic Idealize.ShloMosaic.ValueIdx

/-- The leaky rectifier with the slope literal both programs carry (the binary32 word 0x3E4CCCCD): the identity on
    v ≥ 0 (the ordered comparison of extended reals against the zero word), slope · v below. -/
def leaky (v : EReal) : EReal :=
  Scalar.select (Ideal.cmp .oge v (Ideal.ofBits .f32 0x00000000#32)) v (Ideal.ofBits .f32 0x3E4CCCCD#32 * v)

variable {R : Nat}

/-- Entry (r, j) of A · Wᵀ: the sum over q of A (r, q) · W (j, q). -/
def lin (A : FVec Ideal ⟨2, ![R, 128]⟩ .f32) (W : FVec Ideal ⟨2, ![128, 128]⟩ .f32) (r : Fin R) (j : Fin 128) : EReal :=
  ∑ q : Fin 128, A (ix2 r q) * W (ix2 j q)

/-- The updated feature before normalisation: the rectified sum of the node's own linear map and the rectified linear
    map of its aggregated neighbours. -/
def upd (x nm : FVec Ideal ⟨2, ![R, 128]⟩ .f32) (Ws Wn : FVec Ideal ⟨2, ![128, 128]⟩ .f32) (r : Fin R) (j : Fin 128) : EReal :=
  leaky (lin x Ws r j + leaky (lin nm Wn r j))

/-- The sum of the squares of row r of upd. -/
def sumsq (x nm : FVec Ideal ⟨2, ![R, 128]⟩ .f32) (Ws Wn : FVec Ideal ⟨2, ![128, 128]⟩ .f32) (r : Fin R) : EReal :=
  ∑ j : Fin 128, upd x nm Ws Wn r j * upd x nm Ws Wn r j

/-- The row's Euclidean norm, kept away from zero by the literal eps (the binary32 word 0x2B8CBCCC). -/
def nrm (x nm : FVec Ideal ⟨2, ![R, 128]⟩ .f32) (Ws Wn : FVec Ideal ⟨2, ![128, 128]⟩ .f32) (r : Fin R) : EReal :=
  max (Ideal.sqrt (sumsq x nm Ws Wn r)) (Ideal.ofBits .f32 0x2B8CBCCC#32)

/-- The result: each row of upd divided by its norm. -/
def out (x nm : FVec Ideal ⟨2, ![R, 128]⟩ .f32) (Ws Wn : FVec Ideal ⟨2, ![128, 128]⟩ .f32) : FVec Ideal ⟨2, ![R, 128]⟩ .f32 :=
  fun i => Ideal.div (upd x nm Ws Wn (i 0) (i 1)) (nrm x nm Ws Wn (i 0))

theorem out_apply (x nm : FVec Ideal ⟨2, ![R, 128]⟩ .f32) (Ws Wn : FVec Ideal ⟨2, ![128, 128]⟩ .f32) (r : Fin R) (j : Fin 128) :
    out x nm Ws Wn (ix2 r j) = Ideal.div (upd x nm Ws Wn r j) (nrm x nm Ws Wn r) := rfl

/-! ## Rows of the result depend only on the same rows of the two feature arrays -/

section Rows

variable {R' : Nat}
variable (x nm : FVec Ideal ⟨2, ![R, 128]⟩ .f32) (xb nmb : FVec Ideal ⟨2, ![R', 128]⟩ .f32)
variable (Ws Wn : FVec Ideal ⟨2, ![128, 128]⟩ .f32) (r : Fin R) (p : Fin R')

theorem lin_of_row (A : FVec Ideal ⟨2, ![R, 128]⟩ .f32) (Ab : FVec Ideal ⟨2, ![R', 128]⟩ .f32) (W : FVec Ideal ⟨2, ![128, 128]⟩ .f32)
    (h : ∀ q : Fin 128, Ab (ix2 p q) = A (ix2 r q)) (j : Fin 128) : lin Ab W p j = lin A W r j :=
  Finset.sum_congr rfl fun q _ => by rw [h q]

theorem upd_of_row (hx : ∀ q : Fin 128, xb (ix2 p q) = x (ix2 r q)) (hnm : ∀ q : Fin 128, nmb (ix2 p q) = nm (ix2 r q))
    (j : Fin 128) : upd xb nmb Ws Wn p j = upd x nm Ws Wn r j := by
  unfold upd
  rw [lin_of_row r p x xb Ws hx j, lin_of_row r p nm nmb Wn hnm j]

theorem nrm_of_row (hx : ∀ q : Fin 128, xb (ix2 p q) = x (ix2 r q)) (hnm : ∀ q : Fin 128, nmb (ix2 p q) = nm (ix2 r q)) :
    nrm xb nmb Ws Wn p = nrm x nm Ws Wn r := by
  unfold nrm sumsq
  rw [Finset.sum_congr rfl fun j _ => by rw [upd_of_row x nm xb nmb Ws Wn r p hx hnm j]]

/-- Row p of the result over the arrays xb, nmb is row r of the result over x, nm as soon as rows p of xb, nmb are
    rows r of x, nm. -/
theorem out_of_rows (hx : ∀ q : Fin 128, xb (ix2 p q) = x (ix2 r q)) (hnm : ∀ q : Fin 128, nmb (ix2 p q) = nm (ix2 r q))
    (j : Fin 128) : out xb nmb Ws Wn (ix2 p j) = out x nm Ws Wn (ix2 r j) := by
  rw [out_apply, out_apply, upd_of_row x nm xb nmb Ws Wn r p hx hnm j, nrm_of_row x nm xb nmb Ws Wn r p hx hnm]

end Rows

/-- The same with the two index pairs given by their coordinates: an entry y of the result over blocks xb, nmb that
    sit o rows down in x, nm is the entry of the result over x, nm at the index with y's column and row o + (y's row). -/
theorem out_block {R' : Nat} (o : Nat) (x nm : FVec Ideal ⟨2, ![R, 128]⟩ .f32) (xb nmb : FVec Ideal ⟨2, ![R', 128]⟩ .f32)
    (Ws Wn : FVec Ideal ⟨2, ![128, 128]⟩ .f32)
    (hx : ∀ (y : (⟨2, ![R', 128]⟩ : Shape).Idx) (i : (⟨2, ![R, 128]⟩ : Shape).Idx),
      (i 0).val = o + (y 0).val → (i 1).val = (y 1).val → xb y = x i)
    (hnm : ∀ (y : (⟨2, ![R', 128]⟩ : Shape).Idx) (i : (⟨2, ![R, 128]⟩ : Shape).Idx),
      (i 0).val = o + (y 0).val → (i 1).val = (y 1).val → nmb y = nm i)
    (y : (⟨2, ![R', 128]⟩ : Shape).Idx) (i : (⟨2, ![R, 128]⟩ : Shape).Idx)
    (h0 : (i 0).val = o + (y 0).val) (h1 : (i 1).val = (y 1).val) :
    out xb nmb Ws Wn y = out x nm Ws Wn i := by
  have hi : i = ix2 (i 0) (y 1) := by
    rw [← (Fin.ext h1 : i 1 = y 1)]; exact eq_ix2 i
  rw [eq_ix2 y, hi]
  exact out_of_rows x nm xb nmb Ws Wn (i 0) (y 0) (fun q => hx (ix2 (y 0) q) (ix2 (i 0) q) h0 rfl)
    (fun q => hnm (ix2 (y 0) q) (ix2 (i 0) q) h0 rfl) (y 1)

end Cert.GraphConv
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelPay.lean ====
/-
  What the kernel body stores, entry by entry.

  At one grid point the body holds a 2000-row block of the node features, the same rows of the aggregated neighbour
  features, and the two weight matrices whole. It narrows all four to bfloat16 (no change over the extended reals),
  transposes the weights, multiplies on the matrix unit into a zero accumulator, rectifies, adds, rectifies again,
  sums the squares along each row, gives the row sums back their unit axis, takes the square root, bounds it below by
  eps, spreads it over the row and divides. Read at entry (p, j) of the block this is the specification's out at
  (p, j) over the two blocks: each matrix product is the sum over q of block (p, q) · W (j, q), the lane reduction is
  the sum over the row, and the three re-layings (cast to itself, unit axis added, column spread over the row) only
  rename indices.
-/
import proofs.«105384_j28578712388014_1_alg».proof.Proof.Gen.KernelIdeal.Skeleton
import proofs.«105384_j28578712388014_1_alg».proof.Proof.Spec
import proofs.«105384_j28578712388014_1_alg».proof.Proof.LibDotPlain
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.GraphConv

/-! ## The operations that are not entrywise, each read at an entry -/

/-- A block times a transposed weight matrix on the matrix unit, into zeros, at (p, j): ∑ q, A (p, q) · W (j, q). -/
theorem mm_apply (A : FVec Ideal S2000x128 .f32) (W : FVec Ideal S128x128 .f32) (p : Fin 2000) (j : Fin 128) :
    matmul dot_S2000x128_S128x128_S2000x128_1_0_0_1_n_n none (truncf .bf16 A bitsLt_bf16_f32)
        (transpose S128x128 [1, 0] (truncf .bf16 W bitsLt_bf16_f32) transposes_S128x128_p1_0_S128x128)
        (constant S2000x128 .f32 0x00000000#32) (ix2 p j)
      = lin A W p j := by
  refine (Cert.LibDotPlain.matmul_zero_plain 2000 128 128 none _ _ p j).trans ?_
  unfold lin
  exact Finset.sum_congr rfl fun q _ => congrArg (A (ix2 p q) * ·)
    (transpose_ix2_apply (truncf .bf16 W bitsLt_bf16_f32) transposes_S128x128_p1_0_S128x128 q j)

/-- The lane reduction of a block at row p: the sum of the row's 128 entries. -/
theorem rowsum_apply (v : FVec Ideal S2000x128 .f32) (p : Fin 2000) :
    multiReduction .add [1] S2000 v 0x00000000#32 reduces_S2000x128_S2000 (.inl rfl) rfl (ix1 p) = ∑ k : Fin 128, v (ix2 p k) := by
  refine (Ideal.multiReduction_add_single v 0x00000000#32 reduces_S2000x128_S2000 (.inl rfl) rfl (ix1 p)).trans ?_
  exact Finset.sum_congr rfl fun k _ => congrArg v (funext fun a => Fin.ext (by
    match a with
    | ⟨0, _⟩ => rfl
    | ⟨1, _⟩ => rfl))

/-- A vector of 2000 given a trailing unit axis reads, at (p, u), the vector at p. -/
theorem col_apply (v : FVec Ideal S2000 .f32) (p : Fin 2000) (u : Fin 1) :
    shapeCast S2000x1 v shapeCasts_S2000_S2000x1 (ix2 p u) = v (ix1 p) :=
  shapeCast_apply v shapeCasts_S2000_S2000x1 (ix2 p u) (ix1 p) (by
    have hu := u.isLt
    rw [Shape.rowMajor_val_two, Shape.rowMajor_val_one]
    show p.val = p.val * 1 + u.val
    omega)

/-- A column spread over 128 lanes reads, at (p, j), the column at (p, 0). -/
theorem spread_apply (v : FVec Ideal S2000x1 .f32) (p : Fin 2000) (j : Fin 128) :
    broadcastTo S2000x128 v broadcasts_S2000x1_S2000x128 (ix2 p j) = v (ix2 p (0 : Fin 1)) :=
  broadcastTo_apply v broadcasts_S2000x1_S2000x128 (ix2 p j) (ix2 p (0 : Fin 1)) fun ax => by
    match ax with
    | ⟨0, _⟩ => rfl
    | ⟨1, _⟩ => rfl

/-! ## The body's value in two stages -/

section Stages

variable (v0 v1 : FVec Ideal S2000x128 .f32) (v3 v4 : FVec Ideal S128x128 .f32)

/-- The block of updated features before normalisation, as the body computes it. -/
def updB : FVec Ideal S2000x128 .f32 :=
  let m1 : FVec Ideal S2000x128 .f32 := matmul dot_S2000x128_S128x128_S2000x128_1_0_0_1_n_n none (truncf .bf16 v0 bitsLt_bf16_f32)
    (transpose S128x128 [1, 0] (truncf .bf16 v3 bitsLt_bf16_f32) transposes_S128x128_p1_0_S128x128) (constant S2000x128 .f32 0x00000000#32)
  let m2 : FVec Ideal S2000x128 .f32 := matmul dot_S2000x128_S128x128_S2000x128_1_0_0_1_n_n none
    (truncf .bf16 (shapeCast S2000x128 v1 shapeCasts_S2000x128_S2000x128) bitsLt_bf16_f32)
    (transpose S128x128 [1, 0] (truncf .bf16 v4 bitsLt_bf16_f32) transposes_S128x128_p1_0_S128x128) (constant S2000x128 .f32 0x00000000#32)
  let r2 : FVec Ideal S2000x128 .f32 := select (cmpf .oge m2 (broadcast S2000x128 (Scalar.ofBits .f32 0x00000000#32))) m2
    (mulf (broadcast S2000x128 (Scalar.ofBits .f32 0x3E4CCCCD#32)) m2)
  let s : FVec Ideal S2000x128 .f32 := addf m1 r2
  select (cmpf .oge s (broadcast S2000x128 (Scalar.ofBits .f32 0x00000000#32))) s
    (mulf (broadcast S2000x128 (Scalar.ofBits .f32 0x3E4CCCCD#32)) s)

/-- The stored value is the updated block divided by its bounded row norms spread over the rows. -/
theorem pay_split :
    k0_pay1 (F := Ideal) v0 v1 v3 v4
      = divf (updB v0 v1 v3 v4)
          (broadcastTo S2000x128
            (maximumf
              (sqrt (shapeCast S2000x1
                (multiReduction .add [1] S2000 (mulf (updB v0 v1 v3 v4) (updB v0 v1 v3 v4)) 0x00000000#32 reduces_S2000x128_S2000 (.inl rfl) rfl)
                shapeCasts_S2000_S2000x1))
              (broadcast S2000x1 (Scalar.ofBits .f32 0x2B8CBCCC#32)))
            broadcasts_S2000x1_S2000x128) := rfl

/-- The updated block at (p, j) is the specification's upd over the two blocks. -/
theorem updB_apply (p : Fin 2000) (j : Fin 128) : updB v0 v1 v3 v4 (ix2 p j) = upd v0 v1 v3 v4 p j := by
  show leaky (_ + leaky _) = leaky (lin v0 v3 p j + leaky (lin v1 v4 p j))
  rw [mm_apply v0 v3 p j, mm_apply (shapeCast S2000x128 v1 shapeCasts_S2000x128_S2000x128) v4 p j, shapeCast_self]

/-- The stored value at (p, j) is the specification's out over the two blocks. -/
theorem pay_apply (p : Fin 2000) (j : Fin 128) :
    k0_pay1 (F := Ideal) v0 v1 v3 v4 (ix2 p j) = out (R := 2000) v0 v1 v3 v4 (ix2 p j) := by
  rw [pay_split, out_apply]
  show Ideal.div (updB v0 v1 v3 v4 (ix2 p j)) (broadcastTo S2000x128 _ broadcasts_S2000x1_S2000x128 (ix2 p j)) = _
  rw [spread_apply, updB_apply]
  show Ideal.div _ (max (Ideal.sqrt (shapeCast S2000x1 _ shapeCasts_S2000_S2000x1 (ix2 p (0 : Fin 1)))) (Ideal.ofBits .f32 0x2B8CBCCC#32)) = _
  rw [col_apply, rowsum_apply]
  unfold nrm sumsq
  rw [Finset.sum_congr rfl fun k _ => show mulf (updB v0 v1 v3 v4) (updB v0 v1 v3 v4) (ix2 p k) = upd v0 v1 v3 v4 p k * upd v0 v1 v3 v4 p k by
    rw [mulf_apply, updB_apply]]

/-- The stored block is the specification's out over the two blocks. -/
theorem pay_eq : k0_pay1 (F := Ideal) v0 v1 v3 v4 = out (R := 2000) v0 v1 v3 v4 := by
  funext i
  obtain ⟨p, j, rfl⟩ : ∃ (p : Fin 2000) (j : Fin 128), i = ix2 p j := ⟨i 0, i 1, eq_ix2 i⟩
  exact pay_apply v0 v1 v3 v4 p j

end Stages

end Cert.KernelIdeal.Pay

end
-- ==== Proof.KernelAggr.lean ====
/-
  The aggregated neighbour features in the kernel program.

  The host operations before the call leave, in the call's second operand, the features gathered along the source
  indices (a negative index wrapped once by 50000), summed into their destination rows, and divided by the number of
  edges into each row, bounded below by one. That term is aggr of the first two arguments.
-/
import proofs.«105384_j28578712388014_1_alg».proof.Proof.Gen.KernelIdeal.Frame
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo

section Aggr

variable {F : FTy → Type} [FloatOps F]

/-- Mean of the features of each node's in-neighbours: rows gathered at the (wrapped) source indices, added into the
    destination rows, each row then divided by the larger of its edge count and one. -/
def aggr (x : (⟨S50000x128, .f32⟩ : BufTy).Contents (Elt F)) (e : (⟨S2x800000, .i32⟩ : BufTy).Contents (Elt F)) :
    (⟨S50000x128, .f32⟩ : BufTy).Contents (Elt F) :=
  let dst : (⟨S800000, .i32⟩ : BufTy).Contents (Elt F) :=
    fun i => shapeCast S800000 (extractStridedSlice S1x800000 ![0, 0] e slices_S2x800000_S1x800000_0_0) shapeCasts_S1x800000_S800000 i
  let src : (⟨S800000, .i32⟩ : BufTy).Contents (Elt F) :=
    fun i => shapeCast S800000 (extractStridedSlice S1x800000 ![1, 0] e slices_S2x800000_S1x800000_1_0) shapeCasts_S1x800000_S800000 i
  let wrapped : (⟨S800000, .i32⟩ : BufTy).Contents (Elt F) :=
    select (cmpi .slt src (broadcastInDim S800000 ![] bcast_S_S800000 (constantI S_ 32 0#32)))
      (addi src (broadcastInDim S800000 ![] bcast_S_S800000 (constantI S_ 32 50000#32))) src
  let rows : (⟨S800000x128, .f32⟩ : BufTy).Contents (Elt F) :=
    Host.gather gather_S50000x128_S800000x1_S800000x128_1_0_n_n_0_1_1128 x (broadcastInDim S800000x1 ![0] bcast_S800000_S800000x1_0 wrapped)
  let dcol : (⟨S800000x1, .i32⟩ : BufTy).Contents (Elt F) := broadcastInDim S800000x1 ![0] bcast_S800000_S800000x1_0 dst
  let total : (⟨S50000x128, .f32⟩ : BufTy).Contents (Elt F) :=
    Host.scatterAdd scatter_S50000x128_S800000x1_S800000x128_1_0_0_1
      (broadcastInDim S50000x128 ![] bcast_S_S50000x128 (constant S_ .f32 0x00000000#32)) dcol rows
  let count : (⟨S50000x1, .f32⟩ : BufTy).Contents (Elt F) :=
    Host.scatterAdd scatter_S50000x1_S800000x1_S800000x1_1_0_0_1
      (broadcastInDim S50000x1 ![] bcast_S_S50000x1 (constant S_ .f32 0x00000000#32)) dcol
      (broadcastInDim S800000x1 ![] bcast_S_S800000x1 (constant S_ .f32 0x3F800000#32))
  Host.divf total (broadcastInDim S50000x128 ![0, 1] bcast_S50000x1_S50000x128_0_1
    (maximumf count (broadcastInDim S50000x1 ![] bcast_S_S50000x1 (constant S_ .f32 0x3F800000#32))))

attribute [local irreducible] Host.gather in
set_option maxRecDepth 8192 in
set_option maxHeartbeats 1000000 in
/-- After the host operations before the call, from any contents, the call's second operand holds aggr of the first
    two arguments' contents. -/
theorem aggr_after (W : Valuation τ sig (Elt F)) :
    after hostOps0 W (main_v21 : DevRef τ sig) = aggr (W (main_arg0 : DevRef τ sig)) (W (main_arg1 : DevRef τ sig)) := by
  after_results_simp
  rfl

variable (m : (ℓ : Loc nD τ sig) → Buf (Elt F) ℓ)

/-- When the call is reached, its second operand holds aggr of the first two arguments as launched. -/
theorem V_main_v21 (c : Dev nD) :
    V m c main_v21 = aggr (m ((c : Thread nD τ).loc main_arg0)) (m ((c : Thread nD τ).loc main_arg1)) :=
  aggr_after fun b => m (c, b)

end Aggr

end Cert.KernelIdeal.Whole

end
-- ==== Proof.KernelValue.lean ====
/-
  The kernel program's result array, whole.

  The grid has 25 points; point t stages rows 2000·t … 2000·t + 1999 of the node features and of the aggregated
  neighbour features, both weight matrices whole, and writes back rows 2000·t … 2000·t + 1999 of the result. What it
  writes is the specification's out over its two staged blocks, and a row of out depends only on the same row of the
  two feature arrays; so what point t writes back is rows 2000·t … of out over the whole arrays. The 25 blocks cover
  all 50000 rows (row r lies in block r / 2000), so after the run the result array is out over the whole arrays.
-/
import proofs.«105384_j28578712388014_1_alg».proof.Proof.Gen.KernelIdeal.Value
import proofs.«105384_j28578712388014_1_alg».proof.Proof.KernelPay
import proofs.«105384_j28578712388014_1_alg».proof.Proof.KernelAggr

noncomputable section

namespace Cert.KernelIdeal.Whole

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

/-! ## The result array -/

variable (m : (ℓ : Loc nD τ sig) → Buf (Elt Ideal) ℓ) (ρ : Dev nD → PrngReg)

/-- The four arrays the call reads, as it finds them, and the blocks a point stages, each at its literal type. -/
abbrev xarr (c : Dev nD) : FVec Ideal S50000x128 .f32 := V m c main_arg0
abbrev narr (c : Dev nD) : FVec Ideal S50000x128 .f32 := V m c main_v21
abbrev wsarr (c : Dev nD) : FVec Ideal S128x128 .f32 := V m c main_arg3
abbrev wnarr (c : Dev nD) : FVec Ideal S128x128 .f32 := V m c main_arg4
abbrev xblk (c : Dev nD) (t : Fin cfg0.N) : FVec Ideal S2000x128 .f32 := iblk m c 0 t
abbrev nblk (c : Dev nD) (t : Fin cfg0.N) : FVec Ideal S2000x128 .f32 := iblk m c 1 t
abbrev wsblk (c : Dev nD) (t : Fin cfg0.N) : FVec Ideal S128x128 .f32 := iblk m c 2 t
abbrev wnblk (c : Dev nD) (t : Fin cfg0.N) : FVec Ideal S128x128 .f32 := iblk m c 3 t

theorem hz : (![0, 0] : Fin 2 → Nat) = fun _ => 0 := funext fun a => by fin_cases a <;> rfl

/-- The block indices at point t: the two feature windows and the result window are at row block t, the two weight
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! Reading an array through a window's block. Each fact is about the window's geometry alone, so it is stated for
    any array of the window's shape and used at the arrays the call finds. -/

/-- Through the node-feature window's block at point t, entry y is the array's entry at y's column, row 2000·t + y's row. -/
theorem read_blk0 (t : Fin cfg0.N) (X : FVec Ideal S50000x128 .f32) (y : S2000x128.Idx) (i : S50000x128.Idx)
    (h0 : (i 0).val = t.val * 2000 + (y 0).val) (h1 : (i 1).val = (y 1).val) :
    ((cfg0.win 0).blk t).view.read (Elt Ideal) X y = X i := by
  obtain ⟨e0, e1, -⟩ := idx_facts t
  show X (((cfg0.win 0).blk t).view.emb y) = X i
  refine congrArg X (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The same through the aggregated-feature window's block. -/
theorem read_blk1 (t : Fin cfg0.N) (X : FVec Ideal S50000x128 .f32) (y : S2000x128.Idx) (i : S50000x128.Idx)
    (h0 : (i 0).val = t.val * 2000 + (y 0).val) (h1 : (i 1).val = (y 1).val) :
    ((cfg0.win 1).blk t).view.read (Elt Ideal) X y = X i := by
  obtain ⟨-, -, e0, e1, -⟩ := idx_facts t
  show X (((cfg0.win 1).blk t).view.emb y) = X i
  refine congrArg X (funext fun a => Fin.ext ?_)
  match a with
  | ⟨0, _⟩ => show win0_1.index t (0 : Fin 2) * 2000 + 1 * (y 0).val = (i 0).val; omega
  | ⟨1, _⟩ => show win0_1.index t (1 : Fin 2) * 128 + 1 * (y 1).val = (i 1).val; omega

/-- Each weight window's one block is the whole matrix. -/
theorem read_blk2 (t : Fin cfg0.N) (X : FVec Ideal S128x128 .f32) : ((cfg0.win 2).blk t).view.read (Elt Ideal) X = X := by
  obtain ⟨-, -, -, -, e0, e1, -⟩ := idx_facts t
  funext y
  show X (((cfg0.win 2).blk t).view.emb y) = X y
  refine congrArg X (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem read_blk3 (t : Fin cfg0.N) (X : FVec Ideal S128x128 .f32) : ((cfg0.win 3).blk t).view.read (Elt Ideal) X = X := by
  obtain ⟨-, -, -, -, -, -, e0, e1, -⟩ := idx_facts t
  funext y
  show X (((cfg0.win 3).blk t).view.emb y) = X y
  refine congrArg X (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Through the result window's block at point t, entry y sits at y's column, row 2000·t + y's row. -/
theorem emb_blk4 (t : Fin cfg0.N) (y : S2000x128.Idx) :
    ((((cfg0.win 4).blk t).view.emb y) 0).val = t.val * 2000 + (y 0).val
    ∧ ((((cfg0.win 4).blk t).view.emb y) 1).val = (y 1).val := by
  obtain ⟨-, -, -, -, -, -, -, -, e0, e1⟩ := idx_facts t
  constructor
  · show win0_4.index t (0 : Fin 2) * 2000 + 1 * (y 0).val = _; omega
  · show win0_4.index t (1 : Fin 2) * 128 + 1 * (y 1).val = _; omega

/-- The blocks point t stages, read off the arrays the call finds. -/
theorem xblk_apply (c : Dev nD) (t : Fin cfg0.N) (y : S2000x128.Idx) (i : S50000x128.Idx)
    (h0 : (i 0).val = t.val * 2000 + (y 0).val) (h1 : (i 1).val = (y 1).val) : xblk m c t y = xarr m c i :=
  read_blk0 t (V m c main_arg0) y i h0 h1

theorem nblk_apply (c : Dev nD) (t : Fin cfg0.N) (y : S2000x128.Idx) (i : S50000x128.Idx)
    (h0 : (i 0).val = t.val * 2000 + (y 0).val) (h1 : (i 1).val = (y 1).val) : nblk m c t y = narr m c i :=
  read_blk1 t (V m c main_v21) y i h0 h1

theorem wsblk_eq (c : Dev nD) (t : Fin cfg0.N) : wsblk m c t = wsarr m c := read_blk2 t (V m c main_arg3)

theorem wnblk_eq (c : Dev nD) (t : Fin cfg0.N) : wnblk m c t = wnarr m c := read_blk3 t (V m c main_arg4)

/-- What a point writes back, for any four arrays in place of the ones the call finds: the body's stored block over
    the four staged blocks is block t of out over the four arrays. -/
theorem flushed_of (t : Fin cfg0.N) (X NM : FVec Ideal S50000x128 .f32) (Ws Wn : FVec Ideal S128x128 .f32) :
    (cfg0.win 4).cut (grid0.coords t)
        (out0_4 (((cfg0.win 0).blk t).view.read (Elt Ideal) X) (((cfg0.win 1).blk t).view.read (Elt Ideal) NM)
          (((cfg0.win 2).blk t).view.read (Elt Ideal) Ws) (((cfg0.win 3).blk t).view.read (Elt Ideal) Wn))
      = ((cfg0.win 4).blk t).view.read (Elt Ideal) (out X NM Ws Wn) := by
  unfold out0_4
  rw [View.canon_unit_zero hz]
  simp only [View.ld_unit_zero (S := S2000x128) hz, View.ld_unit_zero (S := S128x128) hz]
  rw [Pay.pay_eq, read_blk2, read_blk3]
  funext y
  show out (R := 2000) (((cfg0.win 0).blk t).view.read (Elt Ideal) X) (((cfg0.win 1).blk t).view.read (Elt Ideal) NM) Ws Wn y
    = out X NM Ws Wn (((cfg0.win 4).blk t).view.emb y)
  exact out_block (t.val * 2000) X NM _ _ Ws Wn (read_blk0 t X) (read_blk1 t NM) y _ (emb_blk4 t y).1 (emb_blk4 t y).2

/-- What point t writes back is block t of out over the four arrays as the call finds them. -/
theorem flushed_eq (c : Dev nD) (t : Fin cfg0.N) :
    (dats m 0 c).flushed 4 t
      = ((cfg0.win 4).blk t).view.read (Elt Ideal) (out (xarr m c) (narr m c) (wsarr m c) (wnarr m c)) := by
  rw [Value.flushed4]
  unfold iblk
  exact flushed_of t (V m c main_arg0) (V m c main_v21) (V m c main_arg3) (V m c main_arg4)

/-- An index of the result array is in point t's block iff each coordinate is in the block's range on its axis. -/
theorem mem_blk (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v22).slice (win0_4.rect t)).set ↔ _
  rw [View.set_slice_whole, Rect.mem_set_unit]
  exact Iff.rfl

/-- Every index of the result array lies in the block of the point its row divided by 2000 names. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨-, -, -, -, -, -, -, -, e0, e1⟩ := idx_facts t
  have ht : t.val = (i 0).val / 2000 := rfl
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- After the run the result array is out over the four arrays as the call finds them. -/
theorem final (c : Dev nD) :
    (dats m 0 c).arrAt 4 cfg0.N = out (xarr m c) (narr m c) (wsarr m c) (wnarr m c) :=
  (dats m 0 c).arrAt_eq_of_cover 4 (out (xarr m c) (narr m c) (wsarr m c) (wnarr m c)) (fun t _ => flushed_eq m c t) cover

/-- The result as a function of the arguments as launched. -/
def result (c : Dev nD) : FVec Ideal S50000x128 .f32 :=
  out (R := 50000) (m ((c : Thread nD τ).loc main_arg0))
    (aggr (m ((c : Thread nD τ).loc main_arg0)) (m ((c : Thread nD τ).loc main_arg1)))
    (m ((c : Thread nD τ).loc main_arg3)) (m ((c : Thread nD τ).loc main_arg4))

theorem final_args (c : Dev nD) : (dats m 0 c).arrAt 4 cfg0.N = result m c := by
  rw [final]
  show out (V m c main_arg0) (V m c main_v21) (V m c main_arg3) (V m c main_arg4) = _
  rw [V_main_arg0, V_main_v21, V_main_arg3, V_main_arg4]
  rfl

/-- Every weakly fair execution of the kernel program ends, without a fault, with the result array at result and the
    arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (Value.run_blocks m ρ)

end Cert.KernelIdeal.Whole

end
-- ==== Proof.RefRun.lean ====
/-
  The reference program's run.

  Its entry function is a straight line of host operations once the three functions it calls are written out where
  they are called: the leaky rectifier (a zero splat, the comparison v ≥ 0, the slope converted and splat, the product
  slope · v, and the selection between v and the product) is called twice, the row norm (the squares, their sum along
  each row, that sum given back its unit axis, the square root) once. Listed in order these are fifty-nine operations,
  each writing one buffer of its own from buffers written before it. A straight line of such operations always ends,
  faults nowhere, and leaves every buffer holding what the operations compute, one after the other, from the contents
  the arguments were launched with.
-/
import proofs.«105384_j28578712388014_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the called functions' operations in place of the calls. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg3 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v6 (broadcastInDim S800000 ![] bcast_S_S800000 : (⟨S_, .i32⟩ : BufTy).Contents (Elt F) → (⟨S800000, .i32⟩ : BufTy).Contents (Elt F)),
    StableHlo.binary main_v3 main_v6 main_v7 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v8 (broadcastInDim S800000 ![] bcast_S_S800000 : (⟨S_, .i32⟩ : BufTy).Contents (Elt F) → (⟨S800000, .i32⟩ : BufTy).Contents (Elt F)),
    StableHlo.binary main_v3 main_v8 main_v9 (addi : (⟨S800000, .i32⟩ : BufTy).Contents (Elt F) → (⟨S800000, .i32⟩ : BufTy).Contents (Elt F) → (⟨S800000, .i32⟩ : BufTy).Contents (Elt F)),
    StableHlo.ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v10 main_v11 (broadcastInDim S800000x1 ![0] bcast_S800000_S800000x1_0 : (⟨S800000, .i32⟩ : BufTy).Contents (Elt F) → (⟨S800000x1, .i32⟩ : BufTy).Contents (Elt F)),
    StableHlo.binary main_arg0 main_v11 main_v12 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v13 (broadcastInDim S50000x128 ![] bcast_S_S50000x128 : (⟨S_, .f32⟩ : BufTy).Contents (Elt F) → (⟨S50000x128, .f32⟩ : BufTy).Contents (Elt F)),
    StableHlo.unary main_v1 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v16 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v17 (broadcastInDim S50000x1 ![] bcast_S_S50000x1 : (⟨S_, .f32⟩ : BufTy).Contents (Elt F) → (⟨S50000x1, .f32⟩ : BufTy).Contents (Elt F)),
    StableHlo.unary main_v1 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x3F800000#32),
    StableHlo.unary main_cst_3 main_v20 (broadcastInDim S50000x1 ![] bcast_S_S50000x1 : (⟨S_, .f32⟩ : BufTy).Contents (Elt F) → (⟨S50000x1, .f32⟩ : BufTy).Contents (Elt F)),
    StableHlo.binary main_v19 main_v20 main_v21 (maximumf : (⟨S50000x1, .f32⟩ : BufTy).Contents (Elt F) → (⟨S50000x1, .f32⟩ : BufTy).Contents (Elt F) → (⟨S50000x1, .f32⟩ : BufTy).Contents (Elt F)),
    StableHlo.unary main_v21 main_v22 (broadcastInDim S50000x128 ![0, 1] bcast_S50000x1_S50000x128_0_1 : (⟨S50000x1, .f32⟩ : BufTy).Contents (Elt F) → (⟨S50000x128, .f32⟩ : BufTy).Contents (Elt F)),
    StableHlo.binary main_v15 main_v22 main_v23 (Host.divf : (⟨S50000x128, .f32⟩ : BufTy).Contents (Elt F) → (⟨S50000x128, .f32⟩ : BufTy).Contents (Elt F) → (⟨S50000x128, .f32⟩ : BufTy).Contents (Elt F)),
    StableHlo.unary main_arg4 main_v24 ((transpose S128x128 [1, 0] · transposes_S128x128_S128x128_1_0) : (⟨S128x128, .f32⟩ : BufTy).Contents (Elt F) → (⟨S128x128, .f32⟩ : BufTy).Contents (Elt F)),
    StableHlo.binary main_v23 main_v24 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_4 (constant S_ .f32 0x3E4CCCCD#32),
    StableHlo.TRef.nullary main_call0.cst (constant S_ .f32 0x00000000#32),
    StableHlo.TRef.unary main_call0.cst main_call0.v0 (broadcastInDim S50000x128 ![] bcast_S_S50000x128),
    StableHlo.TRef.binary (.of main_v25) main_call0.v0 main_call0.v1 (cmpf .oge),
    StableHlo.TRef.unary (.of main_cst_4) main_call0.v2 id,
    StableHlo.TRef.unary main_call0.v2 main_call0.v3 (broadcastInDim S50000x128 ![] bcast_S_S50000x128),
    StableHlo.TRef.binary main_call0.v3 (.of main_v25) main_call0.v4 mulf,
    StableHlo.TRef.ternary main_call0.v1 (.of main_v25) main_call0.v4 main_call0.call0.v0 select,
    StableHlo.binary main_v5 main_v26 main_v27 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3E4CCCCD#32),
    StableHlo.TRef.nullary main_call1.cst (constant S_ .f32 0x00000000#32),
    StableHlo.TRef.unary main_call1.cst main_call1.v0 (broadcastInDim S50000x128 ![] bcast_S_S50000x128),
    StableHlo.TRef.binary (.of main_v27) main_call1.v0 main_call1.v1 (cmpf .oge),
    StableHlo.TRef.unary (.of main_cst_5) main_call1.v2 id,
    StableHlo.TRef.unary main_call1.v2 main_call1.v3 (broadcastInDim S50000x128 ![] bcast_S_S50000x128),
    StableHlo.TRef.binary main_call1.v3 (.of main_v27) main_call1.v4 mulf,
    StableHlo.TRef.ternary main_call1.v1 (.of main_v27) main_call1.v4 main_call1.call0.v0 select,
    StableHlo.TRef.binary (.of main_v28) (.of main_v28) main_call2.v0 mulf,
    StableHlo.TRef.nullary main_call2.cst (constant S_ .f32 0x00000000#32),
    StableHlo.TRef.binary main_call2.v0 main_call2.cst main_call2.v1 (fun x v => Host.reduceAdd x v reducesTo_S50000x128_S50000_d1 h_S_),
    StableHlo.TRef.unary main_call2.v1 main_call2.v2 (broadcastInDim S50000x1 ![0] bcast_S50000_S50000x1_0),
    StableHlo.TRef.unary main_call2.v2 main_call2.v3 Host.sqrt,
    StableHlo.nullary main_cst_6 (constant S_ .f32 0x2B8CBCCC#32),
    StableHlo.unary main_cst_6 main_v30 (broadcastInDim S50000x1 ![] bcast_S_S50000x1 : (⟨S_, .f32⟩ : BufTy).Contents (Elt F) → (⟨S50000x1, .f32⟩ : BufTy).Contents (Elt F)),
    StableHlo.binary main_v29 main_v30 main_v31 (maximumf : (⟨S50000x1, .f32⟩ : BufTy).Contents (Elt F) → (⟨S50000x1, .f32⟩ : BufTy).Contents (Elt F) → (⟨S50000x1, .f32⟩ : BufTy).Contents (Elt F)),
    StableHlo.unary main_v31 main_v32 (broadcastInDim S50000x128 ![0, 1] bcast_S50000x1_S50000x128_0_1 : (⟨S50000x1, .f32⟩ : BufTy).Contents (Elt F) → (⟨S50000x128, .f32⟩ : BufTy).Contents (Elt F)),
    StableHlo.binary main_v28 main_v32 main_v33 (Host.divf : (⟨S50000x128, .f32⟩ : BufTy).Contents (Elt F) → (⟨S50000x128, .f32⟩ : BufTy).Contents (Elt F) → (⟨S50000x128, .f32⟩ : BufTy).Contents (Elt F)) ]

set_option maxRecDepth 4096 in
/-- The entry function is that straight line: the called functions unfolded where they are called, and the sequencing
    re-associated. -/
theorem main_eq (c : Dev nD) : main (F := F) c = seq ops := by
  simp only [main, fn_leaky_relu.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..⟩

/-- Every weakly fair execution of the entry function ends, without a fault, with every buffer at what the operations
    compute in order from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  The reference program's result, read.

  After the fifty-nine operations the result buffer holds one composed term of the arguments as launched (refOut): the
  aggregated neighbour features (aggr: the same gather, two scatter-adds, bounded count and division as in the kernel
  program), two host matrix products against the transposed weights, the leaky rectifier written with a comparison,
  a product and a selection, the row norm as a host reduction given back its unit axis, and the final bounded division.
  Read at entry (r, j) over the extended reals this is the specification's out at (r, j): a host matrix product is the
  sum over q of A (r, q) · W (j, q), the host reduction is the zero initial value plus the sum over the row, and the
  broadcasts only rename indices.
-/
import proofs.«105384_j28578712388014_1_alg».proof.Proof.RefRun
import proofs.«105384_j28578712388014_1_alg».proof.Proof.Spec
import proofs.«105384_j28578712388014_1_alg».proof.Proof.LibDotPlain
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.HandRun
open Idealize.ShloMosaic Idealize.ShloMosaic.TcCoe Idealize.SL.Sem Idealize.ShloMosaic.StableHlo
open Idealize.ShloMosaic.ValueIdx Cert.GraphConv

/-! ## The result buffer's term -/

section Term

variable {F : FTy → Type} [FloatOps F]

/-- Mean of the features of each node's in-neighbours, as the reference's host operations compute it. -/
def aggr (x : (⟨S50000x128, .f32⟩ : BufTy).Contents (Elt F)) (e : (⟨S2x800000, .i32⟩ : BufTy).Contents (Elt F)) :
    (⟨S50000x128, .f32⟩ : BufTy).Contents (Elt F) :=
  let dst : (⟨S800000, .i32⟩ : BufTy).Contents (Elt F) :=
    fun i => shapeCast S800000 (extractStridedSlice S1x800000 ![0, 0] e slices_S2x800000_S1x800000_0_0) shapeCasts_S1x800000_S800000 i
  let src : (⟨S800000, .i32⟩ : BufTy).Contents (Elt F) :=
    fun i => shapeCast S800000 (extractStridedSlice S1x800000 ![1, 0] e slices_S2x800000_S1x800000_1_0) shapeCasts_S1x800000_S800000 i
  let wrapped : (⟨S800000, .i32⟩ : BufTy).Contents (Elt F) :=
    select (cmpi .slt src (broadcastInDim S800000 ![] bcast_S_S800000 (constantI S_ 32 0#32)))
      (addi src (broadcastInDim S800000 ![] bcast_S_S800000 (constantI S_ 32 50000#32))) src
  let rows : (⟨S800000x128, .f32⟩ : BufTy).Contents (Elt F) :=
    Host.gather gather_S50000x128_S800000x1_S800000x128_1_0_n_n_0_1_1128 x (broadcastInDim S800000x1 ![0] bcast_S800000_S800000x1_0 wrapped)
  let dcol : (⟨S800000x1, .i32⟩ : BufTy).Contents (Elt F) := broadcastInDim S800000x1 ![0] bcast_S800000_S800000x1_0 dst
  let total : (⟨S50000x128, .f32⟩ : BufTy).Contents (Elt F) :=
    Host.scatterAdd scatter_S50000x128_S800000x1_S800000x128_1_0_0_1
      (broadcastInDim S50000x128 ![] bcast_S_S50000x128 (constant S_ .f32 0x00000000#32)) dcol rows
  let count : (⟨S50000x1, .f32⟩ : BufTy).Contents (Elt F) :=
    Host.scatterAdd scatter_S50000x1_S800000x1_S800000x1_1_0_0_1
      (broadcastInDim S50000x1 ![] bcast_S_S50000x1 (constant S_ .f32 0x00000000#32)) dcol
      (broadcastInDim S800000x1 ![] bcast_S_S800000x1 (constant S_ .f32 0x3F800000#32))
  Host.divf total (broadcastInDim S50000x128 ![0, 1] bcast_S50000x1_S50000x128_0_1
    (maximumf count (broadcastInDim S50000x1 ![] bcast_S_S50000x1 (constant S_ .f32 0x3F800000#32))))

/-- The leaky rectifier as the called function computes it on a whole array. -/
def leakyV (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (id (constant S_ .f32 0x3E4CCCCD#32))) v)

/-- The updated features before normalisation, on whole arrays. -/
def updV (x nm : FVec F S50000x128 .f32) (ws wn : FVec F S128x128 .f32) : FVec F S50000x128 .f32 :=
  leakyV (addf
    (Host.dotGeneral dot_S50000x128_S128x128_S50000x128_1_0_0_1_n_n none x (transpose S128x128 [1, 0] ws transposes_S128x128_S128x128_1_0))
    (leakyV (Host.dotGeneral dot_S50000x128_S128x128_S50000x128_1_0_0_1_n_n none nm (transpose S128x128 [1, 0] wn transposes_S128x128_S128x128_1_0))))

/-- The normalised result from the updated features. -/
def normalise (u : FVec F S50000x128 .f32) : FVec F S50000x128 .f32 :=
  Host.divf u (broadcastInDim S50000x128 ![0, 1] bcast_S50000x1_S50000x128_0_1
    (maximumf
      (Host.sqrt (broadcastInDim S50000x1 ![0] bcast_S50000_S50000x1_0
        (Host.reduceAdd (mulf u u) (constant S_ .f32 0x00000000#32) reducesTo_S50000x128_S50000_d1 h_S_)))
      (broadcastInDim S50000x1 ![] bcast_S_S50000x1 (constant S_ .f32 0x2B8CBCCC#32))))

/-- The result buffer's term of the four arguments it depends on. -/
def refOut (x : (⟨S50000x128, .f32⟩ : BufTy).Contents (Elt F)) (e : (⟨S2x800000, .i32⟩ : BufTy).Contents (Elt F))
    (ws wn : (⟨S128x128, .f32⟩ : BufTy).Contents (Elt F)) : (⟨S50000x128, .f32⟩ : BufTy).Contents (Elt F) :=
  normalise (updV x (aggr x e) ws wn)

attribute [local irreducible] Host.gather in
set_option maxRecDepth 8192 in
set_option maxHeartbeats 1000000 in
/-- After the operations the result buffer holds refOut of the arguments' contents. -/
theorem out_eq (V : Valuation τ sig (Elt F)) :
    after ops V (main_v33 : DevRef τ sig)
      = refOut (V (main_arg0 : DevRef τ sig)) (V (main_arg1 : DevRef τ sig)) (V (main_arg3 : DevRef τ sig)) (V (main_arg4 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

end Term

/-! ## The term at an entry, over the extended reals -/

theorem leakyV_apply (v : FVec Ideal S50000x128 .f32) (i : S50000x128.Idx) : leakyV v i = leaky (v i) := rfl

/-- A host matrix product against a transposed weight matrix, at (r, j): ∑ q, A (r, q) · W (j, q). -/
theorem dot_apply (A : FVec Ideal S50000x128 .f32) (W : FVec Ideal S128x128 .f32) (r : Fin 50000) (j : Fin 128) :
    Host.dotGeneral dot_S50000x128_S128x128_S50000x128_1_0_0_1_n_n none A
        (transpose S128x128 [1, 0] W transposes_S128x128_S128x128_1_0) (ix2 r j)
      = lin A W r j := by
  refine (Cert.LibDotPlain.dotGeneral_plain 50000 128 128 none .single _ _ r j).trans ?_
  unfold lin
  exact Finset.sum_congr rfl fun q _ => congrArg (A (ix2 r q) * ·)
    (transpose_ix2_apply W transposes_S128x128_S128x128_1_0 q j)

theorem updV_apply (x nm : FVec Ideal S50000x128 .f32) (ws wn : FVec Ideal S128x128 .f32) (r : Fin 50000) (j : Fin 128) :
    updV x nm ws wn (ix2 r j) = upd x nm ws wn r j := by
  show leaky (_ + leaky _) = leaky (lin x ws r j + leaky (lin nm wn r j))
  rw [dot_apply x ws r j, dot_apply nm wn r j]

/-- The host reduction of an array along its rows, from the zero word, at row r: the sum of the row's 128 entries. -/
theorem rowsum_apply (v : FVec Ideal S50000x128 .f32) (r : Fin 50000) :
    Host.reduceAdd v (constant S_ .f32 0x00000000#32) reducesTo_S50000x128_S50000_d1 h_S_ (ix1 r) = ∑ k : Fin 128, v (ix2 r k) := by
  have hr : S50000x128.Reduces [1] S50000 := by decide
  refine (Ideal.hostReduceAdd_single reducesTo_S50000x128_S50000_d1 hr v _ (ix1 r)).trans ?_
  show Ideal.ofBits .f32 0x00000000#32 + _ = _
  rw [Ideal.ofBits_zero_f32, zero_add]
  exact Finset.sum_congr rfl fun k _ => congrArg v (funext fun a => Fin.ext (by
    match a with
    | ⟨0, _⟩ => rfl
    | ⟨1, _⟩ => rfl))

/-- A vector of 50000 broadcast along a new trailing unit axis reads, at (r, u), the vector at r. -/
theorem col_apply (v : FVec Ideal S50000 .f32) (r : Fin 50000) (u : Fin 1) :
    broadcastInDim S50000x1 ![0] bcast_S50000_S50000x1_0 v (ix2 r u) = v (ix1 r) :=
  broadcastInDim_apply ![0] bcast_S50000_S50000x1_0 v (ix2 r u) (ix1 r) fun a => by
    match a with
    | ⟨0, _⟩ => rfl

/-- A column broadcast over 128 lanes reads, at (r, j), the column at (r, 0). -/
theorem spread_apply (v : FVec Ideal S50000x1 .f32) (r : Fin 50000) (j : Fin 128) :
    broadcastInDim S50000x128 ![0, 1] bcast_S50000x1_S50000x128_0_1 v (ix2 r j) = v (ix2 r (0 : Fin 1)) :=
  broadcastInDim_apply ![0, 1] bcast_S50000x1_S50000x128_0_1 v (ix2 r j) (ix2 r (0 : Fin 1)) fun a => by
    match a with
    | ⟨0, _⟩ => rfl
    | ⟨1, _⟩ => rfl

/-- The host's division and square root, and the eps splat, read at an entry. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
theorem splat_apply (b : BitVec 32) (i : S50000x1.Idx) :
    broadcastInDim S50000x1 ![] bcast_S_S50000x1 (constant (F := Ideal) S_ .f32 b) i = Ideal.ofBits .f32 b := rfl

/-- Normalising an array whose entries are the specification's upd gives the specification's out. -/
theorem normalise_apply (x nm : FVec Ideal S50000x128 .f32) (ws wn : FVec Ideal S128x128 .f32) (u : FVec Ideal S50000x128 .f32)
    (hu : ∀ (r : Fin 50000) (j : Fin 128), u (ix2 r j) = upd x nm ws wn r j) (r : Fin 50000) (j : Fin 128) :
    normalise u (ix2 r j) = out (R := 50000) x nm ws wn (ix2 r j) := by
  rw [out_apply]
  unfold normalise nrm sumsq
  rw [hostDivf_apply, spread_apply, maximumf_apply, hostSqrt_apply, col_apply, rowsum_apply, splat_apply, hu]
  rw [Finset.sum_congr rfl fun k _ => show mulf u u (ix2 r k) = upd x nm ws wn r k * upd x nm ws wn r k by
    rw [mulf_apply, hu]]

/-- Over the extended reals the result buffer's term is the specification's out of the node features, their aggregate
    and the two weight matrices. -/
theorem refOut_eq (x : FVec Ideal S50000x128 .f32) (e : IVec S2x800000 32) (ws wn : FVec Ideal S128x128 .f32) :
    refOut (F := Ideal) x e ws wn = out (R := 50000) x (aggr (F := Ideal) x e) ws wn := by
  funext i
  obtain ⟨r, j, rfl⟩ : ∃ (r : Fin 50000) (j : Fin 128), i = ix2 r j := ⟨i 0, i 1, eq_ix2 i⟩
  exact normalise_apply x (aggr (F := Ideal) x e) ws wn _ (updV_apply x _ ws wn) r j

/-! ## The run, read -/

variable (m : (ℓ : Loc nD τ sig) → Buf (Elt Ideal) ℓ) (ρ : Dev nD → PrngReg)

/-- The result as a function of the arguments as launched. -/
def result (c : Dev nD) : FVec Ideal S50000x128 .f32 :=
  out (R := 50000) (m ((c.tc : Thread nD τ).loc main_arg0))
    (aggr (F := Ideal) (m ((c.tc : Thread nD τ).loc main_arg0)) (m ((c.tc : Thread nD τ).loc main_arg1)))
    (m ((c.tc : Thread nD τ).loc main_arg3)) (m ((c.tc : Thread nD τ).loc main_arg4))

/-- Every weakly fair execution of the reference program ends, without a fault, with the result buffer at result and
    the arguments unchanged. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c main_v33).trans (out_eq (launchContents m c))).trans (refOut_eq _ _ _ _),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_all m ρ)

end Cert.ReferenceIdeal.RefValue

end
-- ==== Proof.lean ====
/-
  Graph convolution with mean aggregation, row-normalised: the tiled kernel against the whole-array reference.

  Both programs first form, with the same host operations, the mean of each node's in-neighbour features (aggr). The
  kernel program then handles 2000 rows at a time: two matrix products against the transposed weights, the leaky
  rectifier twice, and each row divided by its Euclidean norm bounded below by eps. The reference does the same on all
  50000 rows at once. Over the extended reals both results are one function of the arguments, the specification's
  out (Proof/Spec.lean):

    · a matrix product, on the matrix unit into zeros or on the host, read at (r, j) is ∑ q, A (r, q) · W (j, q)
      (only the index set of the sum is renamed; no law of the extended reals that needs finiteness is used);
    · the narrowing to bfloat16 before the kernel's products is the identity;
    · the kernel's lane reduction and the host's reduction from zero are both the sum over the row;
    · a row of the result depends only on the same row of the features and of their aggregate, so the kernel's 25
      blocks of 2000 rows are the corresponding rows of the whole result, and together they cover it.

  The literals 0.2 and 1e-12 are the same binary32 words on both sides and are never evaluated. The precondition
  (finite inputs) is not used by the value claim. The word-level kernel and the idealized kernel keep their arguments
  by their frame runs; the reference keeps its arguments because its operations write only their own result buffers.
  The idealization changed no operation, so it preserves the kernel trivially.
-/
import proofs.«105384_j28578712388014_1_alg».proof.Defs
import proofs.«105384_j28578712388014_1_alg».proof.Proof.Gen.Kernel
import proofs.«105384_j28578712388014_1_alg».proof.Proof.Gen.Kernel.Skeleton
import proofs.«105384_j28578712388014_1_alg».proof.Proof.Gen.Kernel.Launch
import proofs.«105384_j28578712388014_1_alg».proof.Proof.Gen.Kernel.Points
import proofs.«105384_j28578712388014_1_alg».proof.Proof.Gen.Kernel.Frame
import proofs.«105384_j28578712388014_1_alg».proof.Proof.Gen.KernelIdeal
import proofs.«105384_j28578712388014_1_alg».proof.Proof.Gen.KernelIdeal.Skeleton
import proofs.«105384_j28578712388014_1_alg».proof.Proof.Gen.KernelIdeal.Launch
import proofs.«105384_j28578712388014_1_alg».proof.Proof.Gen.KernelIdeal.Points
import proofs.«105384_j28578712388014_1_alg».proof.Proof.Gen.KernelIdeal.Frame
import proofs.«105384_j28578712388014_1_alg».proof.Proof.Gen.KernelIdeal.Value
import proofs.«105384_j28578712388014_1_alg».proof.Proof.Gen.ReferenceIdeal
import proofs.«105384_j28578712388014_1_alg».proof.Proof.Gen.Pre_finite_inputs
import proofs.«105384_j28578712388014_1_alg».proof.Proof.KernelValue
import proofs.«105384_j28578712388014_1_alg».proof.Proof.RefValue
import Idealize.ShloMosaic.Adequacy
import Idealize.ShloMosaic.Init

noncomputable section

namespace Cert.Proof

open Idealize.ShloMosaic Idealize.SL.Sem

/-! ## The two programs aggregate the neighbours by the same operations -/

attribute [local irreducible] Host.gather in
/-- The reference's aggregate and the kernel program's are one term: the same slices, wrap, gather, scatter-adds,
    bounded count and division, over dimension records that differ only in the namespace that declares them. -/
theorem aggr_eq {F : FTy → Type} [FloatOps F]
    (x : (⟨Cert.KernelIdeal.S50000x128, .f32⟩ : BufTy).Contents (Elt F)) (e : (⟨Cert.KernelIdeal.S2x800000, .i32⟩ : BufTy).Contents (Elt F)) :
    Cert.ReferenceIdeal.RefValue.aggr (F := F) x e = Cert.KernelIdeal.Whole.aggr (F := F) x e := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments both programs end with the result at out of the node features, their
    aggregate and the two weight matrices. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefValue.run m' ρ')
  unfold Cert.ReferenceIdeal.RefValue.result Cert.KernelIdeal.Whole.result
  rw [(hagree c).1, (hagree c).2.1, (hagree c).2.2.2.1, (hagree c).2.2.2.2, aggr_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
